-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S3x512x512 : Shape := ⟨3, ![3, 512, 512]⟩
abbrev S3x512 : Shape := ⟨2, ![3, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg7 : FVec F S3x512 .f32) (main_arg8 : FVec F S3x512 .f32) (main_arg9 : FVec F S3x512 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S3x512 .f32 := Host.absf main_arg9
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  main_v48

def fn_part1 {F : FTy → Type} [FloatOps F] (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg6
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S3x512x512 .f32) (main_arg3 : FVec F S3x512 .f32) (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S3x512x512 .f32 := Host.absf main_arg2
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S3x512x512 : Shape := ⟨3, ![3, 512, 512]⟩
abbrev S3x512 : Shape := ⟨2, ![3, 512]⟩
abbrev S512x3x512 : Shape := ⟨3, ![512, 3, 512]⟩
abbrev S512x1536 : Shape := ⟨2, ![512, 1536]⟩
abbrev S1x1536 : Shape := ⟨2, ![1, 1536]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S3x512x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x3x512, .f32⟩
  | .hbm, ⟨11, _⟩ => ⟨S512x1536, .f32⟩
  | .hbm, ⟨12, _⟩ => ⟨S512x1536, .bf16⟩
  | .hbm, ⟨13, _⟩ => ⟨S512x3x512, .f32⟩
  | .hbm, ⟨14, _⟩ => ⟨S512x1536, .f32⟩
  | .hbm, ⟨15, _⟩ => ⟨S512x1536, .bf16⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S1x1536, .f32⟩
  | .hbm, ⟨20, _⟩ => ⟨S1x1536, .f32⟩
  | .hbm, ⟨21, _⟩ => ⟨S1x1536, .f32⟩
  | .hbm, ⟨22, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x1536, .f32⟩
  | .local _ .vmem, ⟨12, _⟩ => ⟨S512x512, .f32⟩
  | .local _ .vmem, ⟨13, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S3x512x512_S512x3x512_2_0_1 : S3x512x512.Transposes [2, 0, 1] S512x3x512
  shapeCasts_S512x3x512_S512x1536 : S512x3x512.ShapeCasts S512x1536
  bitsLt_bf16_f32 : FTy.bits .bf16 < FTy.bits .f32
  shapeCasts_S3x512_S1x1536 : S3x512.ShapeCasts S1x1536
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S1x1536_o0_0_S1x512 : S1x1536.Slices ![0, 0] S1x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  slices_S512x1536_o0_512_S512x512 : S512x1536.Slices ![0, 512] S512x512
  slices_S1x1536_o0_512_S1x512 : S1x1536.Slices ![0, 512] S1x512
  slices_S512x1536_o0_1024_S512x512 : S512x1536.Slices ![0, 1024] S512x512
  slices_S1x1536_o0_1024_S1x512 : S1x1536.Slices ![0, 1024] S1x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1536.size a ≤ S1x1536.size a
  hwx0_9 : ∀ i : grid0.Coords, EltTy.bits .f32 = 32 ∨ (Rect.block (s := S1x1536) S1x1536.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S32768x512.size a
  hwx0_10 : ∀ i : grid0.Coords, EltTy.bits .f32 = 32 ∨ (Rect.block (s := S32768x512) S512x512.size (cc0_transform_10 i) (hinb0_10 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S3x512x512 : Shape := ⟨3, ![3, 512, 512]⟩
abbrev S3x512 : Shape := ⟨2, ![3, 512]⟩
abbrev S32768x3x512 : Shape := ⟨3, ![32768, 3, 512]⟩
abbrev S1x3x512 : Shape := ⟨3, ![1, 3, 512]⟩
abbrev S_ : Shape := ⟨0, ![]⟩
abbrev S32768x3 : Shape := ⟨2, ![32768, 3]⟩
abbrev S32768x3x1 : Shape := ⟨3, ![32768, 3, 1]⟩
abbrev S32768x1x512 : Shape := ⟨3, ![32768, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S3x512x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S32768x3x512, .f32⟩
  | .hbm, ⟨11, _⟩ => ⟨S1x3x512, .f32⟩
  | .hbm, ⟨12, _⟩ => ⟨S32768x3x512, .f32⟩
  | .hbm, ⟨13, _⟩ => ⟨S32768x3x512, .f32⟩
  | .hbm, ⟨14, _⟩ => ⟨S_, .f32⟩
  | .hbm, ⟨15, _⟩ => ⟨S32768x3, .f32⟩
  | .hbm, ⟨16, _⟩ => ⟨S32768x3x1, .f32⟩
  | .hbm, ⟨17, _⟩ => ⟨S_, .f32⟩
  | .hbm, ⟨18, _⟩ => ⟨S32768x3x1, .f32⟩
  | .hbm, ⟨19, _⟩ => ⟨S32768x3x1, .f32⟩
  | .hbm, ⟨20, _⟩ => ⟨S32768x3x512, .f32⟩
  | .hbm, ⟨21, _⟩ => ⟨S32768x3x512, .f32⟩
  | .hbm, ⟨22, _⟩ => ⟨S32768x3x512, .f32⟩
  | .hbm, ⟨23, _⟩ => ⟨S_, .f32⟩
  | .hbm, ⟨24, _⟩ => ⟨S32768x3, .f32⟩
  | .hbm, ⟨25, _⟩ => ⟨S32768x3x1, .f32⟩
  | .hbm, ⟨26, _⟩ => ⟨S_, .f32⟩
  | .hbm, ⟨27, _⟩ => ⟨S32768x3x1, .f32⟩
  | .hbm, ⟨28, _⟩ => ⟨S32768x3x1, .f32⟩
  | .hbm, ⟨29, _⟩ => ⟨S32768x3x512, .f32⟩
  | .hbm, ⟨30, _⟩ => ⟨S32768x3x512, .f32⟩
  | .hbm, ⟨31, _⟩ => ⟨S_, .f32⟩
  | .hbm, ⟨32, _⟩ => ⟨S32768x3x1, .f32⟩
  | .hbm, ⟨33, _⟩ => ⟨S32768x3x1, .f32⟩
  | .hbm, ⟨34, _⟩ => ⟨S32768x3x1, .f32⟩
  | .hbm, ⟨35, _⟩ => ⟨S32768x3x512, .f32⟩
  | .hbm, ⟨36, _⟩ => ⟨S32768x3x512, .f32⟩
  | .hbm, ⟨37, _⟩ => ⟨S1x3x512, .f32⟩
  | .hbm, ⟨38, _⟩ => ⟨S32768x3x512, .f32⟩
  | .hbm, ⟨39, _⟩ => ⟨S32768x3x512, .f32⟩
  | .hbm, ⟨40, _⟩ => ⟨S1x3x512, .f32⟩
  | .hbm, ⟨41, _⟩ => ⟨S32768x3x512, .f32⟩
  | .hbm, ⟨42, _⟩ => ⟨S32768x3x512, .f32⟩
  | .hbm, ⟨43, _⟩ => ⟨S32768x3x512, .f32⟩
  | .hbm, ⟨44, _⟩ => ⟨S1x3x512, .f32⟩
  | .hbm, ⟨45, _⟩ => ⟨S32768x3x512, .f32⟩
  | .hbm, ⟨46, _⟩ => ⟨S32768x3x512, .f32⟩
  | .hbm, ⟨47, _⟩ => ⟨S_, .f32⟩
  | .hbm, ⟨48, _⟩ => ⟨S32768x3, .f32⟩
  | .hbm, ⟨49, _⟩ => ⟨S32768x3x1, .f32⟩
  | .hbm, ⟨50, _⟩ => ⟨S_, .f32⟩
  | .hbm, ⟨51, _⟩ => ⟨S32768x3x1, .f32⟩
  | .hbm, ⟨52, _⟩ => ⟨S32768x3x1, .f32⟩
  | .hbm, ⟨53, _⟩ => ⟨S32768x3x512, .f32⟩
  | .hbm, ⟨54, _⟩ => ⟨S32768x3x512, .f32⟩
  | .hbm, ⟨55, _⟩ => ⟨S32768x3x512, .f32⟩
  | .hbm, ⟨56, _⟩ => ⟨S_, .f32⟩
  | .hbm, ⟨57, _⟩ => ⟨S32768x3, .f32⟩
  | .hbm, ⟨58, _⟩ => ⟨S32768x3x1, .f32⟩
  | .hbm, ⟨59, _⟩ => ⟨S_, .f32⟩
  | .hbm, ⟨60, _⟩ => ⟨S32768x3x1, .f32⟩
  | .hbm, ⟨61, _⟩ => ⟨S32768x3x1, .f32⟩
  | .hbm, ⟨62, _⟩ => ⟨S32768x3x512, .f32⟩
  | .hbm, ⟨63, _⟩ => ⟨S32768x3x512, .f32⟩
  | .hbm, ⟨64, _⟩ => ⟨S_, .f32⟩
  | .hbm, ⟨65, _⟩ => ⟨S32768x3x1, .f32⟩
  | .hbm, ⟨66, _⟩ => ⟨S32768x3x1, .f32⟩
  | .hbm, ⟨67, _⟩ => ⟨S32768x3x1, .f32⟩
  | .hbm, ⟨68, _⟩ => ⟨S32768x3x512, .f32⟩
  | .hbm, ⟨69, _⟩ => ⟨S32768x3x512, .f32⟩
  | .hbm, ⟨70, _⟩ => ⟨S1x3x512, .f32⟩
  | .hbm, ⟨71, _⟩ => ⟨S32768x3x512, .f32⟩
  | .hbm, ⟨72, _⟩ => ⟨S32768x3x512, .f32⟩
  | .hbm, ⟨73, _⟩ => ⟨S1x3x512, .f32⟩
  | .hbm, ⟨74, _⟩ => ⟨S32768x3x512, .f32⟩
  | .hbm, ⟨75, _⟩ => ⟨S32768x3x512, .f32⟩
  | .hbm, ⟨76, _⟩ => ⟨S32768x1x512, .f32⟩
  | .hbm, ⟨77, _⟩ => ⟨S32768x512, .f32⟩
  | .hbm, ⟨78, _⟩ => ⟨S32768x1x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S_, .f32⟩
  | .hbm, ⟨84, _⟩ => ⟨S32768x512, .f32⟩
  | .hbm, ⟨85, _⟩ => ⟨S32768x512, .f32⟩
  | .hbm, ⟨86, _⟩ => ⟨S_, .f32⟩
  | .hbm, ⟨87, _⟩ => ⟨S32768x512, .f32⟩
  | .hbm, ⟨88, _⟩ => ⟨S32768x512, .f32⟩
  | .hbm, ⟨89, _⟩ => ⟨S32768x1x512, .f32⟩
  | .hbm, ⟨90, _⟩ => ⟨S32768x512, .f32⟩
  | .hbm, ⟨91, _⟩ => ⟨S32768x1x512, .f32⟩
  | .hbm, ⟨92, _⟩ => ⟨S32768x512, .f32⟩
  | .hbm, ⟨93, _⟩ => ⟨S32768x512, .f32⟩
  | .hbm, ⟨94, _⟩ => ⟨S32768x512, .f32⟩
  | .hbm, ⟨95, _⟩ => ⟨S32768x512, .f32⟩
  | .hbm, ⟨96, _⟩ => ⟨S_, .f32⟩
  | .hbm, ⟨97, _⟩ => ⟨S32768x512, .f32⟩
  | .hbm, ⟨98, _⟩ => ⟨S32768x512, .f32⟩
  | .hbm, ⟨99, _⟩ => ⟨S_, .f32⟩
  | .hbm, ⟨100, _⟩ => ⟨S32768x512, .f32⟩
  | .hbm, ⟨101, _⟩ => ⟨S32768x512, .f32⟩
  | .hbm, ⟨102, _⟩ => ⟨S32768x1x512, .f32⟩
  | .hbm, ⟨103, _⟩ => ⟨S32768x512, .f32⟩
  | .hbm, ⟨104, _⟩ => ⟨S32768x1x512, .f32⟩
  | .hbm, ⟨105, _⟩ => ⟨S32768x512, .f32⟩
  | .hbm, ⟨106, _⟩ => ⟨S32768x512, .f32⟩
  | .hbm, ⟨107, _⟩ => ⟨S32768x512, .f32⟩
  | .hbm, ⟨108, _⟩ => ⟨S32768x512, .f32⟩
  | .hbm, ⟨109, _⟩ => ⟨S_, .f32⟩
  | .hbm, ⟨110, _⟩ => ⟨S32768x512, .f32⟩
  | .hbm, ⟨111, _⟩ => ⟨S32768x512, .f32⟩
  | .hbm, ⟨112, _⟩ => ⟨S32768x512, .f32⟩
  | .hbm, ⟨113, _⟩ => ⟨S32768x512, .f32⟩
  | .hbm, ⟨114, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]

class Facts₀ : Prop where
  bcast_S3x512_S1x3x512_1_2 : S3x512.BroadcastsInDim S1x3x512 (![1, 2] : Fin 2 → Fin S1x3x512.rank)
  bcast_S1x3x512_S32768x3x512_0_1_2 : S1x3x512.BroadcastsInDim S32768x3x512 (![0, 1, 2] : Fin 3 → Fin S32768x3x512.rank)
  reducesTo_S32768x3x512_S32768x3_d2 : S32768x3x512.ReducesTo [2] S32768x3
  h_S_ : 0 < S_.numel
  bcast_S32768x3_S32768x3x1_0_1 : S32768x3.BroadcastsInDim S32768x3x1 (![0, 1] : Fin 2 → Fin S32768x3x1.rank)
  bcast_S_S32768x3x1 : S_.BroadcastsInDim S32768x3x1 (![] : Fin 0 → Fin S32768x3x1.rank)
  bcast_S32768x3x1_S32768x3x512_0_1_2 : S32768x3x1.BroadcastsInDim S32768x3x512 (![0, 1, 2] : Fin 3 → Fin S32768x3x512.rank)
  slices_S32768x3x512_S32768x1x512_0_0_0 : S32768x3x512.Slices ![0, 0, 0] S32768x1x512
  shapeCasts_S32768x1x512_S32768x512 : S32768x1x512.ShapeCasts S32768x512
  bcast_S_S32768x512 : S_.BroadcastsInDim S32768x512 (![] : Fin 0 → Fin S32768x512.rank)
  slices_S32768x3x512_S32768x1x512_0_1_0 : S32768x3x512.Slices ![0, 1, 0] S32768x1x512
  slices_S32768x3x512_S32768x1x512_0_2_0 : S32768x3x512.Slices ![0, 2, 0] S32768x1x512
  dot_S32768x512_S3x512x512_S32768x3x512_1_2_0_01_n_n_wf : DotDims.WF S32768x512 S3x512x512 S32768x3x512 [1] [2] [0] [0, 1] [] []

variable [Facts₀]

def dot_S32768x512_S3x512x512_S32768x3x512_1_2_0_01_n_n : DotDims S32768x512 S3x512x512 S32768x3x512 where
  lhsContracting := [1]
  rhsContracting := [2]
  lhsNonContracting := [0]
  rhsNonContracting := [0, 1]
  lhsBatch := []
  rhsBatch := []
  wf := dot_S32768x512_S3x512x512_S32768x3x512_1_2_0_01_n_n_wf

class Facts : Prop extends Facts₀ where

variable [Facts]
-- ==== Proof.Spec.lean ====
/-
  The LayerNorm GRU cell as one function of the argument arrays, row by row.

  For a batch row b with input row x[b,·] and state row h[b,·], and for each gate g ∈ {r, z, n}:
    yi[g,j] = (Σ_k x[b,k] · Wi[g,j,k]) + bi[g,j]          yh[g,j] = (Σ_k h[b,k] · Wh[g,j,k]) + bh[g,j]
    ai[g,·] = LN(yi[g,·]; ln_gi[g,·], ln_bi[g,·])          ah[g,·] = LN(yh[g,·]; ln_gh[g,·], ln_bh[g,·])
  where LN(y; γ, β)[j] = (y[j] − μ) · rsqrt(σ² + ε) · γ[j] + β[j], μ the mean of y over its 512 entries and σ² the
  mean of (y − μ)². Then
    r = logistic(ai[0] + ah[0]),  z = logistic(ai[1] + ah[1]),  n = tanh(ai[2] + r · ah[2]),
    out[b,j] = (1 − z[j]) · n[j] + z[j] · h[b,j].
  Everything is over the extended reals; the divisor 512, the offset ε and the 1 of (1 − z) are kept as the binary
  words the two programs share, so none of them is ever evaluated. The sums are finite sums in a commutative monoid, so their order
  and grouping do not matter; no other law of arithmetic is used, and none that fails at an infinity.
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

/-- The row length 512 as the f32 word both programs divide a row sum by. -/
abbrev width : EReal := Ideal.ofBits .f32 0x44000000#32

/-- The variance offset, as the f32 word both programs add (the float nearest 1e-5). -/
abbrev eps : EReal := Ideal.ofBits .f32 0x3727C5AC#32

/-- The f32 word of 1.0, as both programs write it. -/
abbrev oneWord : EReal := Ideal.ofBits .f32 0x3F800000#32

/-- The f32 word of 1.0 is the extended real 1. -/
theorem one_word : Ideal.ofBits .f32 0x3F800000#32 = 1 := by
  simp [Ideal.ofBits, Ideal.ieee, -EReal.coe_mul]; norm_num

/-- The logistic function spelled out with the word of 1.0 — 1 / (1 + e^(−x)) — is the logistic function. -/
theorem logistic_spelled (x : EReal) : Ideal.div oneWord (oneWord + Ideal.exp (-x)) = Ideal.logistic x := by
  show Ideal.div (Ideal.ofBits .f32 0x3F800000#32) (Ideal.ofBits .f32 0x3F800000#32 + Ideal.exp (-x)) = _
  rw [one_word]
  rfl

/-- One gate's pre-activation at hidden unit j: the row against the gate's weight row j, plus the bias. -/
def affine (xr : Fin 512 → EReal) (w : Fin 512 → Fin 512 → EReal) (b : Fin 512 → EReal) (j : Fin 512) : EReal :=
  (∑ k : Fin 512, xr k * w j k) + b j

/-- The mean of a row of 512 entries. -/
def rowMean (y : Fin 512 → EReal) : EReal := Ideal.div (∑ k : Fin 512, y k) width

/-- Layer normalisation of a row, with gain γ and offset β. -/
def layerNorm (y gam bet : Fin 512 → EReal) (j : Fin 512) : EReal :=
  (y j - rowMean y) * Ideal.rsqrt (rowMean (fun k => (y k - rowMean y) * (y k - rowMean y)) + eps) * gam j + bet j

/-- The cell's output at hidden unit j for one batch row: the three gates' normalised pre-activations of the input
    row and of the state row, combined. -/
def cell (xr hr : Fin 512 → EReal) (wi wh : Fin 3 → Fin 512 → Fin 512 → EReal)
    (bi bh gi ci gh ch : Fin 3 → Fin 512 → EReal) (j : Fin 512) : EReal :=
  (oneWord - Ideal.logistic (layerNorm (affine xr (wi 1) (bi 1)) (gi 1) (ci 1) j + layerNorm (affine hr (wh 1) (bh 1)) (gh 1) (ch 1) j))
      * Ideal.tanh (layerNorm (affine xr (wi 2) (bi 2)) (gi 2) (ci 2) j
          + Ideal.logistic (layerNorm (affine xr (wi 0) (bi 0)) (gi 0) (ci 0) j + layerNorm (affine hr (wh 0) (bh 0)) (gh 0) (ch 0) j)
            * layerNorm (affine hr (wh 2) (bh 2)) (gh 2) (ch 2) j)
    + Ideal.logistic (layerNorm (affine xr (wi 1) (bi 1)) (gi 1) (ci 1) j + layerNorm (affine hr (wh 1) (bh 1)) (gh 1) (ch 1) j) * hr j

/-- The whole result array: entry (b, j) is the cell at row b of x and h. -/
def G (X H : (⟨2, ![32768, 512]⟩ : Shape).Idx → EReal) (Wi Wh : (⟨3, ![3, 512, 512]⟩ : Shape).Idx → EReal)
    (Bi Bh Gi Ci Gh Ch : (⟨2, ![3, 512]⟩ : Shape).Idx → EReal) : (⟨2, ![32768, 512]⟩ : Shape).Idx → EReal :=
  fun i => cell (fun k => X (ix2 (i 0) k)) (fun k => H (ix2 (i 0) k))
    (fun g j k => Wi (ix3 g j k)) (fun g j k => Wh (ix3 g j k))
    (fun g j => Bi (ix2 g j)) (fun g j => Bh (ix2 g j))
    (fun g j => Gi (ix2 g j)) (fun g j => Ci (ix2 g j)) (fun g j => Gh (ix2 g j)) (fun g j => Ch (ix2 g j)) (i 1)

end Cert.GruSpec

end
-- ==== Proof.KernelRow.lean ====
/-
  One grid point of the kernel, read at an index of its 512 × 512 output block.

  The body forms, for the block's 512 batch rows at once, the two 512 × 1536 products of the input block and of the
  state block with the gate-stacked weight matrices (the three gates' 512 columns side by side: column g·512 + j is
  gate g's unit j), adds the bias rows, normalises each gate's 512 columns of each row, and combines the gates. Read
  at row p and unit j, every step touches only row p of the two blocks: a product entry is a sum over the 512 inputs,
  a mean is a sum over a gate's 512 columns, and the rest is entrywise. So the block's entry (p, j) is the cell of
  Spec.lean at the rows x[p,·] and h[p,·], with gate g's weight row j read from column g·512 + j of the stacked
  matrices.
-/
import proofs.«158212_j34548716929790_1_alg».proof.Proof.Gen.KernelIdeal.Frame
import proofs.«158212_j34548716929790_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GruKernel

open Cert.KernelIdeal Cert.KernelIdeal.Gen Idealize.ShloMosaic Idealize.ShloMosaic.ValueIdx Cert.GruSpec

/-- Column g·512 + j of a gate-stacked row of 1536: gate g's hidden unit j. -/
def col (g : Fin 3) (j : Fin 512) : Fin 1536 := ⟨g.val * 512 + j.val, by have := g.isLt; have := j.isLt; omega⟩

theorem hz : (![0, 0] : Fin 2 → Nat) = fun _ => 0 := funext fun a => by fin_cases a <;> rfl

/-! ## The product with the stacked weights -/

theorem lhs_ax0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_ax1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem rhs_ax0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem rhs_ax1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- Entry (p, c) of the product into a zero accumulator: row p of the left block against column c of the right. -/
theorem product_apply (a : FVec Ideal S512x512 .bf16) (w : FVec Ideal S512x1536 .bf16) (p : Fin 512) (c : Fin 1536) :
    matmul dot_S512x512_S512x1536_S512x1536_1_0_0_1_n_n none a w (constant (F := Ideal) S512x1536 .f32 0x00000000#32) (ix2 p c)
      = ∑ k : Fin 512, a (ix2 p k) * w (ix2 k c) := by
  simp only [matmul]
  rw [Ideal.matmul_constant_zero_apply, ← Equiv.sum_comp (ValueIdx.contrEquiv1 dot_S512x512_S512x1536_S512x1536_1_0_0_1_n_n 512 rfl rfl).symm]
  refine Finset.sum_congr rfl fun k _ => ?_
  have hk := ValueIdx.contrEquiv1_symm_val dot_S512x512_S512x1536_S512x1536_1_0_0_1_n_n 512 rfl rfl k
  have el : dot_S512x512_S512x1536_S512x1536_1_0_0_1_n_n.lhsIdx (ix2 p c) ((ValueIdx.contrEquiv1 dot_S512x512_S512x1536_S512x1536_1_0_0_1_n_n 512 rfl rfl).symm k) = ix2 p k := funext fun ax => Fin.ext (by
    match ax with
    | ⟨0, _⟩ => exact lhs_ax0 _ _
    | ⟨1, _⟩ => exact (lhs_ax1 _ _).trans hk)
  have er : dot_S512x512_S512x1536_S512x1536_1_0_0_1_n_n.rhsIdx (ix2 p c) ((ValueIdx.contrEquiv1 dot_S512x512_S512x1536_S512x1536_1_0_0_1_n_n 512 rfl rfl).symm k) = ix2 k c := funext fun ax => Fin.ext (by
    match ax with
    | ⟨0, _⟩ => exact (rhs_ax0 _ _).trans hk
    | ⟨1, _⟩ => exact rhs_ax1 _ _)
  rw [el, er]

/-- Entry (p, c) of a block's pre-activations: the product entry plus the bias row's entry c. -/
theorem preact_apply (v0 : FVec Ideal S512x512 .f32) (v4 : FVec Ideal S512x1536 .bf16) (v7 : FVec Ideal S1x1536 .f32)
    (p : Fin 512) (c : Fin 1536) :
    k0_pay2 (F := Ideal) v0 v4 v7 (ix2 p c) = (∑ k : Fin 512, v0 (ix2 p k) * v4 (ix2 k c)) + v7 (ix2 (0 : Fin 1) c) := by
  unfold k0_pay2
  show matmul dot_S512x512_S512x1536_S512x1536_1_0_0_1_n_n none (truncf .bf16 v0 bitsLt_bf16_f32) (shapeCast S512x1536 v4 shapeCasts_S512x1536_S512x1536) (constant (F := Ideal) S512x1536 .f32 0x00000000#32) (ix2 p c)
      + broadcastTo S512x1536 (shapeCast S1x1536 v7 shapeCasts_S1x1536_S1x1536) broadcasts_S1x1536_S512x1536 (ix2 p c) = _
  rw [product_apply, broadcastTo_1b_ab_apply, shapeCast_self, shapeCast_self]
  rfl

/-- The state block's pre-activations are the same expression of their own operands. -/
theorem preact_state_eq (v2 : FVec Ideal S512x512 .f32) (v11 : FVec Ideal S512x1536 .bf16) (v14 : FVec Ideal S1x1536 .f32) :
    k0_pay3 (F := Ideal) v2 v11 v14 = k0_pay2 (F := Ideal) v2 v11 v14 := rfl

/-! ## A gate's columns -/

theorem cols0_apply (v : FVec Ideal S512x1536 .f32) (p j : Fin 512) :
    extractStridedSlice S512x512 ![0, 0] v slices_S512x1536_o0_0_S512x512 (ix2 p j) = v (ix2 p (col 0 j)) :=
  slice2_axis1_apply 0 v slices_S512x1536_o0_0_S512x512 p j (col 0 j) (by show 0 * 512 + j.val = 0 + j.val; omega)
theorem cols1_apply (v : FVec Ideal S512x1536 .f32) (p j : Fin 512) :
    extractStridedSlice S512x512 ![0, 512] v slices_S512x1536_o0_512_S512x512 (ix2 p j) = v (ix2 p (col 1 j)) :=
  slice2_axis1_apply 512 v slices_S512x1536_o0_512_S512x512 p j (col 1 j) (by show 1 * 512 + j.val = 512 + j.val; omega)
theorem cols2_apply (v : FVec Ideal S512x1536 .f32) (p j : Fin 512) :
    extractStridedSlice S512x512 ![0, 1024] v slices_S512x1536_o0_1024_S512x512 (ix2 p j) = v (ix2 p (col 2 j)) :=
  slice2_axis1_apply 1024 v slices_S512x1536_o0_1024_S512x512 p j (col 2 j) (by show 2 * 512 + j.val = 1024 + j.val; omega)
theorem rowCols0_apply (v : FVec Ideal S1x1536 .f32) (j : Fin 512) :
    extractStridedSlice S1x512 ![0, 0] v slices_S1x1536_o0_0_S1x512 (ix2 (0 : Fin 1) j) = v (ix2 (0 : Fin 1) (col 0 j)) :=
  slice2_axis1_apply 0 v slices_S1x1536_o0_0_S1x512 0 j (col 0 j) (by show 0 * 512 + j.val = 0 + j.val; omega)
theorem rowCols1_apply (v : FVec Ideal S1x1536 .f32) (j : Fin 512) :
    extractStridedSlice S1x512 ![0, 512] v slices_S1x1536_o0_512_S1x512 (ix2 (0 : Fin 1) j) = v (ix2 (0 : Fin 1) (col 1 j)) :=
  slice2_axis1_apply 512 v slices_S1x1536_o0_512_S1x512 0 j (col 1 j) (by show 1 * 512 + j.val = 512 + j.val; omega)
theorem rowCols2_apply (v : FVec Ideal S1x1536 .f32) (j : Fin 512) :
    extractStridedSlice S1x512 ![0, 1024] v slices_S1x1536_o0_1024_S1x512 (ix2 (0 : Fin 1) j) = v (ix2 (0 : Fin 1) (col 2 j)) :=
  slice2_axis1_apply 1024 v slices_S1x1536_o0_1024_S1x512 0 j (col 2 j) (by show 2 * 512 + j.val = 1024 + j.val; omega)

/-! ## Row sums kept as a column, and a column spread over the rows' entries -/

/-- The sum of each row of a 512 × 512 block, viewed as a 512 × 1 column: entry (p, 0) is row p's sum. -/
theorem rowSum_apply (v : FVec Ideal S512x512 .f32) (p : Fin 512) (q : Fin 1) :
    shapeCast S512x1 (multiReduction (F := Ideal) .add [1] S512 v 0x00000000#32 reduces_S512x512_S512 (.inl rfl) rfl) shapeCasts_S512_S512x1 (ix2 p q)
      = ∑ k : Fin 512, v (ix2 p k) := by
  refine (shapeCast_apply _ shapeCasts_S512_S512x1 (ix2 p q) (ix1 p) ?_).trans ?_
  · rw [Shape.rowMajor_val_one, Shape.rowMajor_val_two]
    show p.val = p.val * 1 + q.val
    have := q.isLt
    omega
  · refine (Ideal.multiReduction_add_single v 0x00000000#32 reduces_S512x512_S512 (.inl rfl) rfl (ix1 p)).trans ?_
    exact Finset.sum_congr rfl fun k _ => congrArg v (funext fun ax => Fin.ext (by
      match ax with
      | ⟨0, _⟩ => rfl
      | ⟨1, _⟩ => rfl))

/-- A 512 × 1 column spread over 512 columns reads, at (p, j), the column's entry p. -/
theorem spreadCol_apply {α : Type} (u : S512x1.Idx → α) (p j : Fin 512) :
    broadcastTo S512x512 u broadcasts_S512x1_S512x512 (ix2 p j) = u (ix2 p (0 : Fin 1)) := by
  refine broadcastTo_apply u broadcasts_S512x1_S512x512 (ix2 p j) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else j.val
    rw [if_pos rfl]

/-! ## Layer normalisation of a block's rows -/

/-- Each row's mean, as a 512 × 1 column. -/
def meanCol (y : FVec Ideal S512x512 .f32) : FVec Ideal S512x1 .f32 :=
  divf (shapeCast S512x1 (multiReduction (F := Ideal) .add [1] S512 y 0x00000000#32 reduces_S512x512_S512 (.inl rfl) rfl) shapeCasts_S512_S512x1)
    (broadcast S512x1 (Scalar.ofBits (F := Ideal) .f32 0x44000000#32))

/-- Each entry less its row's mean. -/
def centred (y : FVec Ideal S512x512 .f32) : FVec Ideal S512x512 .f32 :=
  subf y (broadcastTo S512x512 (meanCol y) broadcasts_S512x1_S512x512)

/-- The block with every row normalised, scaled by the gain row and shifted by the offset row. -/
def normRows (y : FVec Ideal S512x512 .f32) (gam bet : FVec Ideal S1x512 .f32) : FVec Ideal S512x512 .f32 :=
  addf (mulf (mulf (centred y)
      (broadcastTo S512x512 (rsqrt (addf (meanCol (mulf (centred y) (centred y))) (broadcast S512x1 (Scalar.ofBits (F := Ideal) .f32 0x3727C5AC#32)))) broadcasts_S512x1_S512x512))
      (broadcastTo S512x512 gam broadcasts_S1x512_S512x512))
    (broadcastTo S512x512 bet broadcasts_S1x512_S512x512)

theorem meanCol_apply (y : FVec Ideal S512x512 .f32) (p : Fin 512) (q : Fin 1) :
    meanCol y (ix2 p q) = rowMean (fun k => y (ix2 p k)) := by
  show Ideal.div (shapeCast S512x1 (multiReduction (F := Ideal) .add [1] S512 y 0x00000000#32 reduces_S512x512_S512 (.inl rfl) rfl) shapeCasts_S512_S512x1 (ix2 p q)) width = _
  rw [rowSum_apply]
  rfl

theorem centred_apply (y : FVec Ideal S512x512 .f32) (p k : Fin 512) :
    centred y (ix2 p k) = y (ix2 p k) - rowMean (fun k' => y (ix2 p k')) := by
  show y (ix2 p k) - broadcastTo S512x512 (meanCol y) broadcasts_S512x1_S512x512 (ix2 p k) = _
  rw [spreadCol_apply, meanCol_apply]

/-- Entry (p, j) of the normalised block is the layer normalisation of row p at j, with the gain and offset rows. -/
theorem normRows_apply (y : FVec Ideal S512x512 .f32) (gam bet : FVec Ideal S1x512 .f32) (p j : Fin 512) :
    normRows y gam bet (ix2 p j)
      = layerNorm (fun k => y (ix2 p k)) (fun k => gam (ix2 (0 : Fin 1) k)) (fun k => bet (ix2 (0 : Fin 1) k)) j := by
  have hvar : meanCol (mulf (centred y) (centred y)) (ix2 p (0 : Fin 1))
      = rowMean (fun k => (y (ix2 p k) - rowMean (fun k' => y (ix2 p k'))) * (y (ix2 p k) - rowMean (fun k' => y (ix2 p k')))) := by
    rw [meanCol_apply]
    refine congrArg rowMean (funext fun k => ?_)
    show centred y (ix2 p k) * centred y (ix2 p k) = _
    rw [centred_apply]
  show centred y (ix2 p j)
        * broadcastTo S512x512 (rsqrt (addf (meanCol (mulf (centred y) (centred y))) (broadcast S512x1 (Scalar.ofBits (F := Ideal) .f32 0x3727C5AC#32)))) broadcasts_S512x1_S512x512 (ix2 p j)
        * broadcastTo S512x512 gam broadcasts_S1x512_S512x512 (ix2 p j)
      + broadcastTo S512x512 bet broadcasts_S1x512_S512x512 (ix2 p j) = _
  rw [spreadCol_apply, broadcastTo_1b_ab_apply, broadcastTo_1b_ab_apply, centred_apply]
  show _ * Ideal.rsqrt (meanCol (mulf (centred y) (centred y)) (ix2 p (0 : Fin 1)) + eps) * _ + _ = _
  rw [hvar]
  rfl

end Cert.GruKernel

end
-- ==== Proof.KernelCell.lean ====
/-
  The six normalised gates of one grid point and their combination, read at an index.

  Gate g of the input side is the layer normalisation of columns g·512 … g·512 + 511 of the input block's
  pre-activations, with the same columns of the gain and offset rows; the state side likewise. At row p every one of
  them is the layer normalisation of Spec.lean applied to the affine image of row p. The stored block combines them
  entrywise, so its entry (p, j) is the cell at rows x[p,·] and h[p,·].
-/
import proofs.«158212_j34548716929790_1_alg».proof.Proof.KernelRow

set_option maxRecDepth 16384

noncomputable section

namespace Cert.GruKernel

open Cert.KernelIdeal Cert.KernelIdeal.Gen Idealize.ShloMosaic Idealize.ShloMosaic.ValueIdx Cert.GruSpec

/-- A row of gains or offsets as the body holds it, cut to gate g's columns. -/
theorem param0 (v : FVec Ideal S1x1536 .f32) (k : Fin 512) :
    extractStridedSlice S1x512 ![0, 0] (shapeCast S1x1536 v shapeCasts_S1x1536_S1x1536) slices_S1x1536_o0_0_S1x512 (ix2 (0 : Fin 1) k)
      = v (ix2 (0 : Fin 1) (col 0 k)) := by
  rw [rowCols0_apply, shapeCast_self]
theorem param1 (v : FVec Ideal S1x1536 .f32) (k : Fin 512) :
    extractStridedSlice S1x512 ![0, 512] (shapeCast S1x1536 v shapeCasts_S1x1536_S1x1536) slices_S1x1536_o0_512_S1x512 (ix2 (0 : Fin 1) k)
      = v (ix2 (0 : Fin 1) (col 1 k)) := by
  rw [rowCols1_apply, shapeCast_self]
theorem param2 (v : FVec Ideal S1x1536 .f32) (k : Fin 512) :
    extractStridedSlice S1x512 ![0, 1024] (shapeCast S1x1536 v shapeCasts_S1x1536_S1x1536) slices_S1x1536_o0_1024_S1x512 (ix2 (0 : Fin 1) k)
      = v (ix2 (0 : Fin 1) (col 2 k)) := by
  rw [rowCols2_apply, shapeCast_self]

/-- Gate 0 of one side, normalised, at (p, j): columns 0 … 511 of that side's pre-activations, with the same columns
    of its gain and offset rows, is the layer normalisation of the affine image of row p. -/
theorem gate0_apply (a : FVec Ideal S512x512 .f32) (w : FVec Ideal S512x1536 .bf16) (b gam bet : FVec Ideal S1x1536 .f32)
    (p j : Fin 512) :
    normRows (extractStridedSlice S512x512 ![0, 0] (k0_pay2 (F := Ideal) a w b) slices_S512x1536_o0_0_S512x512)
        (extractStridedSlice S1x512 ![0, 0] (shapeCast S1x1536 gam shapeCasts_S1x1536_S1x1536) slices_S1x1536_o0_0_S1x512)
        (extractStridedSlice S1x512 ![0, 0] (shapeCast S1x1536 bet shapeCasts_S1x1536_S1x1536) slices_S1x1536_o0_0_S1x512) (ix2 p j)
      = layerNorm (affine (fun k => a (ix2 p k)) (fun j' k => w (ix2 k (col 0 j'))) (fun j' => b (ix2 (0 : Fin 1) (col 0 j'))))
          (fun k => gam (ix2 (0 : Fin 1) (col 0 k))) (fun k => bet (ix2 (0 : Fin 1) (col 0 k))) j := by
  rw [normRows_apply]
  simp only [cols0_apply, param0, preact_apply]
  rfl

/-- Gate 1 likewise: columns 512 … 1023. -/
theorem gate1_apply (a : FVec Ideal S512x512 .f32) (w : FVec Ideal S512x1536 .bf16) (b gam bet : FVec Ideal S1x1536 .f32)
    (p j : Fin 512) :
    normRows (extractStridedSlice S512x512 ![0, 512] (k0_pay2 (F := Ideal) a w b) slices_S512x1536_o0_512_S512x512)
        (extractStridedSlice S1x512 ![0, 512] (shapeCast S1x1536 gam shapeCasts_S1x1536_S1x1536) slices_S1x1536_o0_512_S1x512)
        (extractStridedSlice S1x512 ![0, 512] (shapeCast S1x1536 bet shapeCasts_S1x1536_S1x1536) slices_S1x1536_o0_512_S1x512) (ix2 p j)
      = layerNorm (affine (fun k => a (ix2 p k)) (fun j' k => w (ix2 k (col 1 j'))) (fun j' => b (ix2 (0 : Fin 1) (col 1 j'))))
          (fun k => gam (ix2 (0 : Fin 1) (col 1 k))) (fun k => bet (ix2 (0 : Fin 1) (col 1 k))) j := by
  rw [normRows_apply]
  simp only [cols1_apply, param1, preact_apply]
  rfl

/-- Gate 2 likewise: columns 1024 … 1535. -/
theorem gate2_apply (a : FVec Ideal S512x512 .f32) (w : FVec Ideal S512x1536 .bf16) (b gam bet : FVec Ideal S1x1536 .f32)
    (p j : Fin 512) :
    normRows (extractStridedSlice S512x512 ![0, 1024] (k0_pay2 (F := Ideal) a w b) slices_S512x1536_o0_1024_S512x512)
        (extractStridedSlice S1x512 ![0, 1024] (shapeCast S1x1536 gam shapeCasts_S1x1536_S1x1536) slices_S1x1536_o0_1024_S1x512)
        (extractStridedSlice S1x512 ![0, 1024] (shapeCast S1x1536 bet shapeCasts_S1x1536_S1x1536) slices_S1x1536_o0_1024_S1x512) (ix2 p j)
      = layerNorm (affine (fun k => a (ix2 p k)) (fun j' k => w (ix2 k (col 2 j'))) (fun j' => b (ix2 (0 : Fin 1) (col 2 j'))))
          (fun k => gam (ix2 (0 : Fin 1) (col 2 k))) (fun k => bet (ix2 (0 : Fin 1) (col 2 k))) j := by
  rw [normRows_apply]
  simp only [cols2_apply, param2, preact_apply]
  rfl

/-- ENTRY (p, j) OF WHAT ONE GRID POINT STORES is the cell at row p of its input block and of its state block, the
    gates' weight rows and parameter rows read from the gate-stacked operands. -/
theorem block_apply (x0 x1 : FVec Ideal S512x512 .f32) (x2 x3 : FVec Ideal S512x1536 .bf16)
    (x4 x5 x6 x7 x8 x9 : FVec Ideal S1x1536 .f32) (p j : Fin 512) :
    out0_10 (F := Ideal) x0 x1 x2 x3 x4 x5 x6 x7 x8 x9 (ix2 p j)
      = cell (fun k => x0 (ix2 p k)) (fun k => x1 (ix2 p k))
          (fun g j' k => x2 (ix2 k (col g j'))) (fun g j' k => x3 (ix2 k (col g j')))
          (fun g j' => x4 (ix2 (0 : Fin 1) (col g j'))) (fun g j' => x5 (ix2 (0 : Fin 1) (col g j')))
          (fun g j' => x6 (ix2 (0 : Fin 1) (col g j'))) (fun g j' => x7 (ix2 (0 : Fin 1) (col g j')))
          (fun g j' => x8 (ix2 (0 : Fin 1) (col g j'))) (fun g j' => x9 (ix2 (0 : Fin 1) (col g j'))) j := by
  -- the six gates at (p, j): three of the input side, three of the state side
  have ei0 := gate0_apply x0 x2 x4 x6 x7 p j
  have ei1 := gate1_apply x0 x2 x4 x6 x7 p j
  have ei2 := gate2_apply x0 x2 x4 x6 x7 p j
  have eh0 := gate0_apply x1 x3 x5 x8 x9 p j
  have eh1 := gate1_apply x1 x3 x5 x8 x9 p j
  have eh2 := gate2_apply x1 x3 x5 x8 x9 p j
  -- the stored block is its one piece, and each whole-block load is the block
  unfold out0_10
  rw [View.canon_unit_zero hz]
  simp only [View.ld_unit_zero (S := S512x512) hz, View.ld_unit_zero (S := S512x1536) hz, View.ld_unit_zero (S := S1x1536) hz]
  -- the cell, with each gate rewritten to its normalised block's entry: the body's own combination
  unfold cell
  rw [← ei0, ← ei1, ← ei2, ← eh0, ← eh1, ← eh2]
  rfl

end Cert.GruKernel

end
-- ==== Proof.KernelArray.lean ====
/-
  From the 64 grid points to the whole result array.

  The grid cuts the 32768 batch rows into 64 blocks of 512: point t reads rows t·512 … t·512 + 511 of x and of h,
  reads the stacked weights and the parameter rows whole, and writes rows t·512 … t·512 + 511 of the result. Before
  the region the host lays each weight array W[g, j, k] out as a 512 × 1536 matrix whose entry (k, g·512 + j) is
  W[g, j, k] (a transpose to [k, g, j], then the last two axes flattened), and each parameter array P[g, j] as a row
  of 1536 whose entry g·512 + j is P[g, j]. So what point t writes at (p, j) is the cell of Spec.lean at row
  t·512 + p of x and h with the weights and parameters as given: the block of ONE whole-array function. The 64
  blocks tile the array, so the array ends as that function.
-/
import proofs.«158212_j34548716929790_1_alg».proof.Proof.Gen.KernelIdeal.Value
import proofs.«158212_j34548716929790_1_alg».proof.Proof.KernelCell
import Idealize.ShloMosaic.Lib.StableHlo.Run

set_option maxRecDepth 16384

noncomputable section

namespace Cert.GruKernel

open Cert.KernelIdeal Cert.KernelIdeal.Gen Idealize.ShloMosaic Idealize.ShloMosaic.TcCoe Idealize.ShloMosaic.ValueIdx
open Idealize.SL.Sem Idealize.ShloMosaic.StableHlo Cert.GruSpec
open Idealize.ShloMosaic.Pipeline (Dat)

variable (m : (ℓ : Loc nD τ sig) → Buf (Elt Ideal) ℓ) (ρ : Dev nD → PrngReg)

/-- The cell of the ten argument arrays as core c holds them at launch, entry by entry. -/
abbrev cellArray (c : Dev nD) : S32768x512.Idx → EReal :=
  G (m ((c : Thread nD τ).loc main_arg0)) (m ((c : Thread nD τ).loc main_arg1)) (m ((c : Thread nD τ).loc main_arg2)) (m ((c : Thread nD τ).loc main_arg4))
    (m ((c : Thread nD τ).loc main_arg3)) (m ((c : Thread nD τ).loc main_arg5)) (m ((c : Thread nD τ).loc main_arg6)) (m ((c : Thread nD τ).loc main_arg7))
    (m ((c : Thread nD τ).loc main_arg8)) (m ((c : Thread nD τ).loc main_arg9))

/-! ## What the host lays out before the region -/

/-- A weight array W[g, j, k] transposed to [k, g, j] and flattened to 512 × 1536: entry (k, g·512 + j) is W[g, j, k]
    (position k·1536 + g·512 + j of the flat order is position (k·3 + g)·512 + j). -/
theorem relaid_apply (W : FVec Ideal S3x512x512 .f32) (k : Fin 512) (g : Fin 3) (j : Fin 512) :
    truncf .bf16 (shapeCast S512x1536 (transpose S512x3x512 [2, 0, 1] W transposes_S3x512x512_S512x3x512_2_0_1) shapeCasts_S512x3x512_S512x1536) bitsLt_bf16_f32 (ix2 k (col g j))
      = W (ix3 g j k) := by
  show shapeCast S512x1536 (transpose S512x3x512 [2, 0, 1] W transposes_S3x512x512_S512x3x512_2_0_1) shapeCasts_S512x3x512_S512x1536 (ix2 k (col g j)) = _
  refine (shapeCast_apply _ shapeCasts_S512x3x512_S512x1536 (ix2 k (col g j)) (ix3 k g j) ?_).trans ?_
  · rw [Shape.rowMajor_val_three, Shape.rowMajor_val_two]
    show (k.val * 3 + g.val) * 512 + j.val = k.val * 1536 + (g.val * 512 + j.val)
    omega
  · refine transpose_apply [2, 0, 1] W transposes_S3x512x512_S512x3x512_2_0_1 (ix3 k g j) (ix3 g j k) fun ax => ?_
    match ax with
    | ⟨0, _⟩ => rfl
    | ⟨1, _⟩ => rfl
    | ⟨2, _⟩ => rfl

/-- A parameter array P[g, j] flattened to one row of 1536: entry g·512 + j is P[g, j]. -/
theorem flatRow_apply (Pm : FVec Ideal S3x512 .f32) (g : Fin 3) (j : Fin 512) :
    shapeCast S1x1536 Pm shapeCasts_S3x512_S1x1536 (ix2 (0 : Fin 1) (col g j)) = Pm (ix2 g j) := by
  refine shapeCast_apply Pm shapeCasts_S3x512_S1x1536 (ix2 (0 : Fin 1) (col g j)) (ix2 g j) ?_
  rw [Shape.rowMajor_val_two, Shape.rowMajor_val_two]
  show g.val * 512 + j.val = 0 * 1536 + (g.val * 512 + j.val)
  omega

theorem wi_found (c : Dev nD) (k : Fin 512) (g : Fin 3) (j : Fin 512) :
    (V m c main_v2 : S512x1536.Idx → EReal) (ix2 k (col g j)) = ((m ((c : Thread nD τ).loc main_arg2)) : S3x512x512.Idx → EReal) (ix3 g j k) := by
  have e : (V m c main_v2 : S512x1536.Idx → EReal)
      = truncf (F := Ideal) .bf16 (shapeCast S512x1536 (transpose S512x3x512 [2, 0, 1] (m ((c : Thread nD τ).loc main_arg2)) transposes_S3x512x512_S512x3x512_2_0_1) shapeCasts_S512x3x512_S512x1536) bitsLt_bf16_f32 := by
    dsimp only [V, hostOps0]; after_results; rfl
  rw [e]
  exact relaid_apply _ k g j

theorem wh_found (c : Dev nD) (k : Fin 512) (g : Fin 3) (j : Fin 512) :
    (V m c main_v5 : S512x1536.Idx → EReal) (ix2 k (col g j)) = ((m ((c : Thread nD τ).loc main_arg4)) : S3x512x512.Idx → EReal) (ix3 g j k) := by
  have e : (V m c main_v5 : S512x1536.Idx → EReal)
      = truncf (F := Ideal) .bf16 (shapeCast S512x1536 (transpose S512x3x512 [2, 0, 1] (m ((c : Thread nD τ).loc main_arg4)) transposes_S3x512x512_S512x3x512_2_0_1) shapeCasts_S512x3x512_S512x1536) bitsLt_bf16_f32 := by
    dsimp only [V, hostOps0]; after_results; rfl
  rw [e]
  exact relaid_apply _ k g j

theorem bi_found (c : Dev nD) (g : Fin 3) (j : Fin 512) :
    (V m c main_v6 : S1x1536.Idx → EReal) (ix2 (0 : Fin 1) (col g j)) = ((m ((c : Thread nD τ).loc main_arg3)) : S3x512.Idx → EReal) (ix2 g j) := by
  have e : (V m c main_v6 : S1x1536.Idx → EReal) = shapeCast S1x1536 (m ((c : Thread nD τ).loc main_arg3)) shapeCasts_S3x512_S1x1536 := by
    dsimp only [V, hostOps0]; after_results; rfl
  rw [e]
  exact flatRow_apply _ g j

theorem bh_found (c : Dev nD) (g : Fin 3) (j : Fin 512) :
    (V m c main_v7 : S1x1536.Idx → EReal) (ix2 (0 : Fin 1) (col g j)) = ((m ((c : Thread nD τ).loc main_arg5)) : S3x512.Idx → EReal) (ix2 g j) := by
  have e : (V m c main_v7 : S1x1536.Idx → EReal) = shapeCast S1x1536 (m ((c : Thread nD τ).loc main_arg5)) shapeCasts_S3x512_S1x1536 := by
    dsimp only [V, hostOps0]; after_results; rfl
  rw [e]
  exact flatRow_apply _ g j

theorem gi_found (c : Dev nD) (g : Fin 3) (j : Fin 512) :
    (V m c main_v8 : S1x1536.Idx → EReal) (ix2 (0 : Fin 1) (col g j)) = ((m ((c : Thread nD τ).loc main_arg6)) : S3x512.Idx → EReal) (ix2 g j) := by
  have e : (V m c main_v8 : S1x1536.Idx → EReal) = shapeCast S1x1536 (m ((c : Thread nD τ).loc main_arg6)) shapeCasts_S3x512_S1x1536 := by
    dsimp only [V, hostOps0]; after_results; rfl
  rw [e]
  exact flatRow_apply _ g j

theorem ci_found (c : Dev nD) (g : Fin 3) (j : Fin 512) :
    (V m c main_v9 : S1x1536.Idx → EReal) (ix2 (0 : Fin 1) (col g j)) = ((m ((c : Thread nD τ).loc main_arg7)) : S3x512.Idx → EReal) (ix2 g j) := by
  have e : (V m c main_v9 : S1x1536.Idx → EReal) = shapeCast S1x1536 (m ((c : Thread nD τ).loc main_arg7)) shapeCasts_S3x512_S1x1536 := by
    dsimp only [V, hostOps0]; after_results; rfl
  rw [e]
  exact flatRow_apply _ g j

theorem gh_found (c : Dev nD) (g : Fin 3) (j : Fin 512) :
    (V m c main_v10 : S1x1536.Idx → EReal) (ix2 (0 : Fin 1) (col g j)) = ((m ((c : Thread nD τ).loc main_arg8)) : S3x512.Idx → EReal) (ix2 g j) := by
  have e : (V m c main_v10 : S1x1536.Idx → EReal) = shapeCast S1x1536 (m ((c : Thread nD τ).loc main_arg8)) shapeCasts_S3x512_S1x1536 := by
    dsimp only [V, hostOps0]; after_results; rfl
  rw [e]
  exact flatRow_apply _ g j

theorem ch_found (c : Dev nD) (g : Fin 3) (j : Fin 512) :
    (V m c main_v11 : S1x1536.Idx → EReal) (ix2 (0 : Fin 1) (col g j)) = ((m ((c : Thread nD τ).loc main_arg9)) : S3x512.Idx → EReal) (ix2 g j) := by
  have e : (V m c main_v11 : S1x1536.Idx → EReal) = shapeCast S1x1536 (m ((c : Thread nD τ).loc main_arg9)) shapeCasts_S3x512_S1x1536 := by
    dsimp only [V, hostOps0]; after_results; rfl
  rw [e]
  exact flatRow_apply _ g j

/-! ## Which block each window holds at a point -/

/-- Row t·512 + p of the batch: row p of point t's block. -/
def rowOf (t : Fin cfg0.N) (p : Fin 512) : Fin 32768 :=
  ⟨t.val * 512 + p.val, by have ht : t.val < 64 := lt_of_lt_of_eq t.isLt N_0; have hp := p.isLt; omega⟩

/-- The printed index maps, decided over the 64 points: the row windows sit at block (t, 0), the others at (0, 0). -/
theorem rowWindows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)
theorem wholeWindows : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem xblk_apply (c : Dev nD) (t : Fin cfg0.N) (p k : Fin 512) :
    (iblk m c 0 t : S512x512.Idx → EReal) (ix2 p k) = ((m ((c : Thread nD τ).loc main_arg0)) : S32768x512.Idx → EReal) (ix2 (rowOf t p) k) := by
  rw [← V_main_arg0 m c]
  show V m c main_arg0 (((cfg0.win 0).blk t).view.emb (ix2 p k)) = V m c main_arg0 (ix2 (rowOf t p) k)
  refine congrArg _ (funext fun ax => Fin.ext ?_)
  obtain ⟨e0, e1, -⟩ := rowWindows t
  match ax with
  | ⟨0, _⟩ => show win0_0.index t (0 : Fin 2) * 512 + 1 * p.val = t.val * 512 + p.val; omega
  | ⟨1, _⟩ => show win0_0.index t (1 : Fin 2) * 512 + 1 * k.val = k.val; omega

theorem hblk_apply (c : Dev nD) (t : Fin cfg0.N) (p k : Fin 512) :
    (iblk m c 1 t : S512x512.Idx → EReal) (ix2 p k) = ((m ((c : Thread nD τ).loc main_arg1)) : S32768x512.Idx → EReal) (ix2 (rowOf t p) k) := by
  rw [← V_main_arg1 m c]
  show V m c main_arg1 (((cfg0.win 1).blk t).view.emb (ix2 p k)) = V m c main_arg1 (ix2 (rowOf t p) k)
  refine congrArg _ (funext fun ax => Fin.ext ?_)
  obtain ⟨-, -, e0, e1, -⟩ := rowWindows t
  match ax with
  | ⟨0, _⟩ => show win0_1.index t (0 : Fin 2) * 512 + 1 * p.val = t.val * 512 + p.val; omega
  | ⟨1, _⟩ => show win0_1.index t (1 : Fin 2) * 512 + 1 * k.val = k.val; omega

theorem wiblk_apply (c : Dev nD) (t : Fin cfg0.N) (k : Fin 512) (cc : Fin 1536) :
    (iblk m c 2 t : S512x1536.Idx → EReal) (ix2 k cc) = (V m c main_v2 : S512x1536.Idx → EReal) (ix2 k cc) := by
  show V m c main_v2 (((cfg0.win 2).blk t).view.emb (ix2 k cc)) = V m c main_v2 (ix2 k cc)
  refine congrArg _ (funext fun ax => Fin.ext ?_)
  obtain ⟨e0, e1, -⟩ := wholeWindows t
  match ax with
  | ⟨0, _⟩ => show win0_2.index t (0 : Fin 2) * 512 + 1 * k.val = k.val; omega
  | ⟨1, _⟩ => show win0_2.index t (1 : Fin 2) * 1536 + 1 * cc.val = cc.val; omega

theorem whblk_apply (c : Dev nD) (t : Fin cfg0.N) (k : Fin 512) (cc : Fin 1536) :
    (iblk m c 3 t : S512x1536.Idx → EReal) (ix2 k cc) = (V m c main_v5 : S512x1536.Idx → EReal) (ix2 k cc) := by
  show V m c main_v5 (((cfg0.win 3).blk t).view.emb (ix2 k cc)) = V m c main_v5 (ix2 k cc)
  refine congrArg _ (funext fun ax => Fin.ext ?_)
  obtain ⟨-, -, e0, e1, -⟩ := wholeWindows t
  match ax with
  | ⟨0, _⟩ => show win0_3.index t (0 : Fin 2) * 512 + 1 * k.val = k.val; omega
  | ⟨1, _⟩ => show win0_3.index t (1 : Fin 2) * 1536 + 1 * cc.val = cc.val; omega

theorem biblk_apply (c : Dev nD) (t : Fin cfg0.N) (q : Fin 1) (cc : Fin 1536) :
    (iblk m c 4 t : S1x1536.Idx → EReal) (ix2 q cc) = (V m c main_v6 : S1x1536.Idx → EReal) (ix2 q cc) := by
  show V m c main_v6 (((cfg0.win 4).blk t).view.emb (ix2 q cc)) = V m c main_v6 (ix2 q cc)
  refine congrArg _ (funext fun ax => Fin.ext ?_)
  obtain ⟨-, -, -, -, e0, e1, -⟩ := wholeWindows t
  match ax with
  | ⟨0, _⟩ => show win0_4.index t (0 : Fin 2) * 1 + 1 * q.val = q.val; omega
  | ⟨1, _⟩ => show win0_4.index t (1 : Fin 2) * 1536 + 1 * cc.val = cc.val; omega

theorem bhblk_apply (c : Dev nD) (t : Fin cfg0.N) (q : Fin 1) (cc : Fin 1536) :
    (iblk m c 5 t : S1x1536.Idx → EReal) (ix2 q cc) = (V m c main_v7 : S1x1536.Idx → EReal) (ix2 q cc) := by
  show V m c main_v7 (((cfg0.win 5).blk t).view.emb (ix2 q cc)) = V m c main_v7 (ix2 q cc)
  refine congrArg _ (funext fun ax => Fin.ext ?_)
  obtain ⟨-, -, -, -, -, -, e0, e1, -⟩ := wholeWindows t
  match ax with
  | ⟨0, _⟩ => show win0_5.index t (0 : Fin 2) * 1 + 1 * q.val = q.val; omega
  | ⟨1, _⟩ => show win0_5.index t (1 : Fin 2) * 1536 + 1 * cc.val = cc.val; omega

theorem giblk_apply (c : Dev nD) (t : Fin cfg0.N) (q : Fin 1) (cc : Fin 1536) :
    (iblk m c 6 t : S1x1536.Idx → EReal) (ix2 q cc) = (V m c main_v8 : S1x1536.Idx → EReal) (ix2 q cc) := by
  show V m c main_v8 (((cfg0.win 6).blk t).view.emb (ix2 q cc)) = V m c main_v8 (ix2 q cc)
  refine congrArg _ (funext fun ax => Fin.ext ?_)
  obtain ⟨-, -, -, -, -, -, -, -, e0, e1, -⟩ := wholeWindows t
  match ax with
  | ⟨0, _⟩ => show win0_6.index t (0 : Fin 2) * 1 + 1 * q.val = q.val; omega
  | ⟨1, _⟩ => show win0_6.index t (1 : Fin 2) * 1536 + 1 * cc.val = cc.val; omega

theorem ciblk_apply (c : Dev nD) (t : Fin cfg0.N) (q : Fin 1) (cc : Fin 1536) :
    (iblk m c 7 t : S1x1536.Idx → EReal) (ix2 q cc) = (V m c main_v9 : S1x1536.Idx → EReal) (ix2 q cc) := by
  show V m c main_v9 (((cfg0.win 7).blk t).view.emb (ix2 q cc)) = V m c main_v9 (ix2 q cc)
  refine congrArg _ (funext fun ax => Fin.ext ?_)
  obtain ⟨-, -, -, -, -, -, -, -, -, -, e0, e1, -⟩ := wholeWindows t
  match ax with
  | ⟨0, _⟩ => show win0_7.index t (0 : Fin 2) * 1 + 1 * q.val = q.val; omega
  | ⟨1, _⟩ => show win0_7.index t (1 : Fin 2) * 1536 + 1 * cc.val = cc.val; omega

theorem ghblk_apply (c : Dev nD) (t : Fin cfg0.N) (q : Fin 1) (cc : Fin 1536) :
    (iblk m c 8 t : S1x1536.Idx → EReal) (ix2 q cc) = (V m c main_v10 : S1x1536.Idx → EReal) (ix2 q cc) := by
  show V m c main_v10 (((cfg0.win 8).blk t).view.emb (ix2 q cc)) = V m c main_v10 (ix2 q cc)
  refine congrArg _ (funext fun ax => Fin.ext ?_)
  obtain ⟨-, -, -, -, -, -, -, -, -, -, -, -, e0, e1, -⟩ := wholeWindows t
  match ax with
  | ⟨0, _⟩ => show win0_8.index t (0 : Fin 2) * 1 + 1 * q.val = q.val; omega
  | ⟨1, _⟩ => show win0_8.index t (1 : Fin 2) * 1536 + 1 * cc.val = cc.val; omega

theorem chblk_apply (c : Dev nD) (t : Fin cfg0.N) (q : Fin 1) (cc : Fin 1536) :
    (iblk m c 9 t : S1x1536.Idx → EReal) (ix2 q cc) = (V m c main_v11 : S1x1536.Idx → EReal) (ix2 q cc) := by
  show V m c main_v11 (((cfg0.win 9).blk t).view.emb (ix2 q cc)) = V m c main_v11 (ix2 q cc)
  refine congrArg _ (funext fun ax => Fin.ext ?_)
  obtain ⟨-, -, -, -, -, -, -, -, -, -, -, -, -, -, e0, e1⟩ := wholeWindows t
  match ax with
  | ⟨0, _⟩ => show win0_9.index t (0 : Fin 2) * 1 + 1 * q.val = q.val; omega
  | ⟨1, _⟩ => show win0_9.index t (1 : Fin 2) * 1536 + 1 * cc.val = cc.val; omega

/-! ## The cell's ten arguments at point t and row p, read back to the argument arrays

Each is one function of the gate and unit (and input) indices; the block read and the host's layout compose. -/

theorem xrow_eq (c : Dev nD) (t : Fin cfg0.N) (p : Fin 512) :
    (fun k : Fin 512 => (iblk m c 0 t : S512x512.Idx → EReal) (ix2 p k))
      = fun k => (m ((c : Thread nD τ).loc main_arg0) : S32768x512.Idx → EReal) (ix2 (rowOf t p) k) :=
  funext fun k => xblk_apply m c t p k

theorem hrow_eq (c : Dev nD) (t : Fin cfg0.N) (p : Fin 512) :
    (fun k : Fin 512 => (iblk m c 1 t : S512x512.Idx → EReal) (ix2 p k))
      = fun k => (m ((c : Thread nD τ).loc main_arg1) : S32768x512.Idx → EReal) (ix2 (rowOf t p) k) :=
  funext fun k => hblk_apply m c t p k

theorem wi_eq (c : Dev nD) (t : Fin cfg0.N) :
    (fun (g : Fin 3) (j' k : Fin 512) => (iblk m c 2 t : S512x1536.Idx → EReal) (ix2 k (col g j')))
      = fun g j' k => (m ((c : Thread nD τ).loc main_arg2) : S3x512x512.Idx → EReal) (ix3 g j' k) :=
  funext fun g => funext fun j' => funext fun k => (wiblk_apply m c t k (col g j')).trans (wi_found m c k g j')

theorem wh_eq (c : Dev nD) (t : Fin cfg0.N) :
    (fun (g : Fin 3) (j' k : Fin 512) => (iblk m c 3 t : S512x1536.Idx → EReal) (ix2 k (col g j')))
      = fun g j' k => (m ((c : Thread nD τ).loc main_arg4) : S3x512x512.Idx → EReal) (ix3 g j' k) :=
  funext fun g => funext fun j' => funext fun k => (whblk_apply m c t k (col g j')).trans (wh_found m c k g j')

theorem bi_eq (c : Dev nD) (t : Fin cfg0.N) :
    (fun (g : Fin 3) (j' : Fin 512) => (iblk m c 4 t : S1x1536.Idx → EReal) (ix2 (0 : Fin 1) (col g j')))
      = fun g j' => (m ((c : Thread nD τ).loc main_arg3) : S3x512.Idx → EReal) (ix2 g j') :=
  funext fun g => funext fun j' => (biblk_apply m c t 0 (col g j')).trans (bi_found m c g j')

theorem bh_eq (c : Dev nD) (t : Fin cfg0.N) :
    (fun (g : Fin 3) (j' : Fin 512) => (iblk m c 5 t : S1x1536.Idx → EReal) (ix2 (0 : Fin 1) (col g j')))
      = fun g j' => (m ((c : Thread nD τ).loc main_arg5) : S3x512.Idx → EReal) (ix2 g j') :=
  funext fun g => funext fun j' => (bhblk_apply m c t 0 (col g j')).trans (bh_found m c g j')

theorem gi_eq (c : Dev nD) (t : Fin cfg0.N) :
    (fun (g : Fin 3) (j' : Fin 512) => (iblk m c 6 t : S1x1536.Idx → EReal) (ix2 (0 : Fin 1) (col g j')))
      = fun g j' => (m ((c : Thread nD τ).loc main_arg6) : S3x512.Idx → EReal) (ix2 g j') :=
  funext fun g => funext fun j' => (giblk_apply m c t 0 (col g j')).trans (gi_found m c g j')

theorem ci_eq (c : Dev nD) (t : Fin cfg0.N) :
    (fun (g : Fin 3) (j' : Fin 512) => (iblk m c 7 t : S1x1536.Idx → EReal) (ix2 (0 : Fin 1) (col g j')))
      = fun g j' => (m ((c : Thread nD τ).loc main_arg7) : S3x512.Idx → EReal) (ix2 g j') :=
  funext fun g => funext fun j' => (ciblk_apply m c t 0 (col g j')).trans (ci_found m c g j')

theorem gh_eq (c : Dev nD) (t : Fin cfg0.N) :
    (fun (g : Fin 3) (j' : Fin 512) => (iblk m c 8 t : S1x1536.Idx → EReal) (ix2 (0 : Fin 1) (col g j')))
      = fun g j' => (m ((c : Thread nD τ).loc main_arg8) : S3x512.Idx → EReal) (ix2 g j') :=
  funext fun g => funext fun j' => (ghblk_apply m c t 0 (col g j')).trans (gh_found m c g j')

theorem ch_eq (c : Dev nD) (t : Fin cfg0.N) :
    (fun (g : Fin 3) (j' : Fin 512) => (iblk m c 9 t : S1x1536.Idx → EReal) (ix2 (0 : Fin 1) (col g j')))
      = fun g j' => (m ((c : Thread nD τ).loc main_arg9) : S3x512.Idx → EReal) (ix2 g j') :=
  funext fun g => funext fun j' => (chblk_apply m c t 0 (col g j')).trans (ch_found m c g j')

/-! ## What a point writes back, the cover, and the array -/

/-- WHAT POINT t WRITES BACK is block t of the cell array. -/
theorem flushed_eq (c : Dev nD) (t : Fin cfg0.N) :
    (dats m 0 c).flushed 10 t = ((cfg0.win 10).blk t).view.read (Elt Ideal) (cellArray m c) := by
  rw [Value.flushed10]
  refine funext fun (y : S512x512.Idx) => ?_
  obtain ⟨p, j, rfl⟩ : ∃ (p j : Fin 512), y = ix2 p j := ⟨y 0, y 1, eq_ix2 y⟩
  have hemb : ((cfg0.win 10).blk t).view.emb (ix2 p j) = ix2 (rowOf t p) j := funext fun ax => Fin.ext (by
    obtain ⟨-, -, -, -, e0, e1⟩ := rowWindows t
    match ax with
    | ⟨0, _⟩ => show win0_10.index t (0 : Fin 2) * 512 + 1 * p.val = t.val * 512 + p.val; omega
    | ⟨1, _⟩ => show win0_10.index t (1 : Fin 2) * 512 + 1 * j.val = j.val; omega)
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p j)
      = cellArray m c (((cfg0.win 10).blk t).view.emb (ix2 p j))
  rw [hemb]
  refine (block_apply (iblk m c 0 t) (iblk m c 1 t) (iblk m c 2 t) (iblk m c 3 t) (iblk m c 4 t) (iblk m c 5 t) (iblk m c 6 t) (iblk m c 7 t) (iblk m c 8 t) (iblk m c 9 t) p j).trans ?_
  rw [xrow_eq, hrow_eq, wi_eq, wh_eq, bi_eq, bh_eq, gi_eq, ci_eq, gh_eq, ch_eq]
  rfl

/-- An index of the array is in point t's block iff each coordinate is in the block's range on its axis. -/
theorem mem_blk (t : Fin cfg0.N) (i : S32768x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v12).slice (win0_10.rect t)).set ↔ _
  rw [View.set_slice_whole, Rect.mem_set_unit]
  exact Iff.rfl

/-- Every index of the array is in the block of the point that holds its row: point (row / 512). -/
theorem cover (i : S32768x512.Idx) : ∃ t : Fin cfg0.N, (cfg0.win 10).flush t = true ∧ i ∈ ((cfg0.win 10).blk t).view.set := by
  have hi0 : (i 0).val < 32768 := (i 0).isLt
  have hi1 : (i 1).val < 512 := (i 1).isLt
  have hN : grid0.N = 64 := N_0
  have hlt : (i 0).val / 512 < grid0.N := by omega
  refine ⟨⟨(i 0).val / 512, hlt⟩, flush0_10 _, ?_⟩
  rw [mem_blk]
  obtain ⟨-, -, -, -, e0, e1⟩ := rowWindows ⟨(i 0).val / 512, hlt⟩
  have e0' : win0_10.index ⟨(i 0).val / 512, hlt⟩ (0 : Fin 2) = (i 0).val / 512 := e0
  intro a
  match a with
  | ⟨0, _⟩ =>
    show win0_10.index ⟨(i 0).val / 512, hlt⟩ (0 : Fin 2) * 512 ≤ (i 0).val ∧ (i 0).val < win0_10.index ⟨(i 0).val / 512, hlt⟩ (0 : Fin 2) * 512 + 512
    omega
  | ⟨1, _⟩ =>
    show win0_10.index ⟨(i 0).val / 512, hlt⟩ (1 : Fin 2) * 512 ≤ (i 1).val ∧ (i 1).val < win0_10.index ⟨(i 0).val / 512, hlt⟩ (1 : Fin 2) * 512 + 512
    omega

/-- THE ARRAY after the run is the cell array. -/
theorem final (c : Dev nD) : (dats m 0 c).arrAt 10 cfg0.N = cellArray m c :=
  (dats m 0 c).arrAt_eq_of_cover 10 (cellArray m c) (fun t _ => flushed_eq m c t) cover

/-- The kernel's run: the result array ends as the cell array, the ten arguments unchanged. -/
theorem run : θ_run defs (onTc (τ := τ) (main (F := Ideal))) ⟨m, fun _ => 0, ρ⟩ fun r => ∀ c : Dev nD,
      r.2.mem ((c : Thread nD τ).loc main_v12) = cellArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.GruKernel

end
-- ==== Proof.RefCell.lean ====
/-
  The reference program, read at an index of its result.

  The reference forms the pre-activations of all 32768 rows and three gates at once, as a 32768 × 3 × 512 array:
  entry (b, g, j) is row b of x against weight row (g, j), plus the bias; it normalises along the last axis, cuts
  the three gates apart, and combines them entrywise, the logistic function spelled out as 1 / (1 + e^(−x)). Read at
  (b, j) every step depends only on row b of x and of h: a dot product over the 512 inputs, two sums over a gate's
  512 units, and entrywise arithmetic. So the result's entry (b, j) is the cell of Spec.lean at rows x[b,·], h[b,·].
  The state side is the same chain of operations as the input side applied to other arguments, so what is shown
  for the input side is carried over to it as it stands.
-/
import proofs.«158212_j34548716929790_1_alg».proof.Proof.Gen.ReferenceIdeal.Read
import proofs.«158212_j34548716929790_1_alg».proof.Proof.Spec

set_option maxRecDepth 16384

noncomputable section

namespace Cert.GruRef

open Cert.ReferenceIdeal Cert.ReferenceIdeal.Gen Cert.ReferenceIdeal.Read Idealize.ShloMosaic Idealize.ShloMosaic.ValueIdx Cert.GruSpec

/-- A batch of rows, a gate-stacked weight array, a gate-stacked parameter array. -/
abbrev Rows := (⟨S32768x512, .f32⟩ : BufTy).Contents (Elt Ideal)
abbrev Wts := (⟨S3x512x512, .f32⟩ : BufTy).Contents (Elt Ideal)
abbrev Par := (⟨S3x512, .f32⟩ : BufTy).Contents (Elt Ideal)

/-! ## Where each layout step reads its operand -/

theorem lidx0 (b : Fin 32768) (g : Fin 3) (j k : Fin 512) : lidx_main_v0 (ix3 b g j) k = ix2 b k := by
  funext a; apply Fin.ext
  match a with
  | ⟨0, _⟩ => rfl
  | ⟨1, _⟩ => rfl

theorem ridx0 (b : Fin 32768) (g : Fin 3) (j k : Fin 512) : ridx_main_v0 (ix3 b g j) k = ix3 g j k := by
  funext a; apply Fin.ext
  match a with
  | ⟨0, _⟩ => rfl
  | ⟨1, _⟩ => rfl
  | ⟨2, _⟩ => rfl

theorem idx2 (b : Fin 32768) (g : Fin 3) (j : Fin 512) : idx_main_v2 (ix3 b g j) = ix3 (0 : Fin 1) g j := by
  funext a; apply Fin.ext
  match a with
  | ⟨0, _⟩ => rfl
  | ⟨1, _⟩ => rfl
  | ⟨2, _⟩ => rfl

theorem idx1 (q : Fin 1) (g : Fin 3) (j : Fin 512) : idx_main_v1 (ix3 q g j) = ix2 g j := by
  funext a; apply Fin.ext
  match a with
  | ⟨0, _⟩ => rfl
  | ⟨1, _⟩ => rfl

theorem idx4 (b : Fin 32768) (g : Fin 3) (k : Fin 512) : idx_main_v4 (ix2 b g) k = ix3 b g k := by
  funext a; apply Fin.ext
  match a with
  | ⟨0, _⟩ => rfl
  | ⟨1, _⟩ => rfl
  | ⟨2, _⟩ => rfl

theorem idx5 (b : Fin 32768) (g : Fin 3) (q : Fin 1) : idx_main_v5 (ix3 b g q) = ix2 b g := by
  funext a; apply Fin.ext
  match a with
  | ⟨0, _⟩ => rfl
  | ⟨1, _⟩ => rfl

theorem idx8 (b : Fin 32768) (g : Fin 3) (j : Fin 512) : idx_main_v8 (ix3 b g j) = ix3 b g (0 : Fin 1) := by
  funext a; apply Fin.ext
  match a with
  | ⟨0, _⟩ => rfl
  | ⟨1, _⟩ => rfl
  | ⟨2, _⟩ => rfl

theorem idx11 (b : Fin 32768) (g : Fin 3) (k : Fin 512) : idx_main_v11 (ix2 b g) k = ix3 b g k := by
  funext a; apply Fin.ext
  match a with
  | ⟨0, _⟩ => rfl
  | ⟨1, _⟩ => rfl
  | ⟨2, _⟩ => rfl

theorem idx12 (b : Fin 32768) (g : Fin 3) (q : Fin 1) : idx_main_v12 (ix3 b g q) = ix2 b g := by
  funext a; apply Fin.ext
  match a with
  | ⟨0, _⟩ => rfl
  | ⟨1, _⟩ => rfl

theorem idx15 (b : Fin 32768) (g : Fin 3) (j : Fin 512) : idx_main_v15 (ix3 b g j) = ix3 b g (0 : Fin 1) := by
  funext a; apply Fin.ext
  match a with
  | ⟨0, _⟩ => rfl
  | ⟨1, _⟩ => rfl
  | ⟨2, _⟩ => rfl

theorem idx20 (b : Fin 32768) (g : Fin 3) (j : Fin 512) : idx_main_v20 (ix3 b g j) = ix3 b g (0 : Fin 1) := by
  funext a; apply Fin.ext
  match a with
  | ⟨0, _⟩ => rfl
  | ⟨1, _⟩ => rfl
  | ⟨2, _⟩ => rfl

theorem idx23 (b : Fin 32768) (g : Fin 3) (j : Fin 512) : idx_main_v23 (ix3 b g j) = ix3 (0 : Fin 1) g j := by
  funext a; apply Fin.ext
  match a with
  | ⟨0, _⟩ => rfl
  | ⟨1, _⟩ => rfl
  | ⟨2, _⟩ => rfl

theorem idx22 (q : Fin 1) (g : Fin 3) (j : Fin 512) : idx_main_v22 (ix3 q g j) = ix2 g j := by
  funext a; apply Fin.ext
  match a with
  | ⟨0, _⟩ => rfl
  | ⟨1, _⟩ => rfl

theorem idx26 (b : Fin 32768) (g : Fin 3) (j : Fin 512) : idx_main_v26 (ix3 b g j) = ix3 (0 : Fin 1) g j := by
  funext a; apply Fin.ext
  match a with
  | ⟨0, _⟩ => rfl
  | ⟨1, _⟩ => rfl
  | ⟨2, _⟩ => rfl

theorem idx25 (q : Fin 1) (g : Fin 3) (j : Fin 512) : idx_main_v25 (ix3 q g j) = ix2 g j := by
  funext a; apply Fin.ext
  match a with
  | ⟨0, _⟩ => rfl
  | ⟨1, _⟩ => rfl

/-! ## Cutting gate g out of the normalised array and dropping its unit axis: entry (b, j) is entry (b, g, j)

The reshape reads position b·512 + j of the cut's row-major order, which is row (b·512 + j) / 512 = b and
unit (b·512 + j) % 512 = j; the cut puts its offset g on the gate axis. -/

theorem cutIdx0_in (b : Fin 32768) (j : Fin 512) : idx_main_v56 (idx_main_v57 (ix2 b j)) = ix3 b (0 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

theorem cutIdx1_in (b : Fin 32768) (j : Fin 512) : idx_main_v67 (idx_main_v68 (ix2 b j)) = ix3 b (1 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

theorem cutIdx2_in (b : Fin 32768) (j : Fin 512) : idx_main_v78 (idx_main_v79 (ix2 b j)) = ix3 b (2 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

theorem cutIdx0_st (b : Fin 32768) (j : Fin 512) : idx_main_v58 (idx_main_v59 (ix2 b j)) = ix3 b (0 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

theorem cutIdx1_st (b : Fin 32768) (j : Fin 512) : idx_main_v69 (idx_main_v70 (ix2 b j)) = ix3 b (1 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

theorem cutIdx2_st (b : Fin 32768) (j : Fin 512) : idx_main_v80 (idx_main_v81 (ix2 b j)) = ix3 b (2 : Fin 3) j := by
  have hj := j.isLt
  funext a; apply Fin.ext
  match a with
  | ⟨0, _⟩ => show (b.val * 512 + j.val) / 512 = b.val; omega
  | ⟨1, _⟩ => rfl
  | ⟨2, _⟩ => show (b.val * 512 + j.val) % 512 = j.val; omega

/-! ## One side's pre-activations and their normalisation -/

/-- Entry (b, g, j) of the pre-activations: row b against gate g's weight row j, plus the bias. -/
theorem preact_ref (x0 : Rows) (x2 : Wts) (x3 : Par) (b : Fin 32768) (g : Fin 3) (j : Fin 512) :
    val_main_v3 (F := Ideal) x0 x2 x3 (ix3 b g j)
      = affine (fun k => x0 (ix2 b k)) (fun j' k => x2 (ix3 g j' k)) (fun j' => x3 (ix2 g j')) j := by
  rw [val_main_v3_apply, val_main_v0_apply, val_main_v2_apply, idx2, val_main_v1_apply, idx1]
  simp only [lidx0, ridx0]
  rfl

/-- The mean over a gate's 512 units, kept as a unit axis. -/
theorem mean_ref (x0 : Rows) (x2 : Wts) (x3 : Par) (b : Fin 32768) (g : Fin 3) (q : Fin 1) :
    val_main_v7 (F := Ideal) x0 x2 x3 (ix3 b g q) = rowMean (fun k => val_main_v3 (F := Ideal) x0 x2 x3 (ix3 b g k)) := by
  rw [val_main_v7_apply, val_main_v5_apply, idx5, val_main_v4_apply, val_main_v6_apply, val_main_cst_0_apply, val_main_cst_apply]
  simp only [idx4]
  show Ideal.div (Ideal.ofBits .f32 0x00000000#32 + ∑ k : Fin 512, val_main_v3 (F := Ideal) x0 x2 x3 (ix3 b g k)) width = _
  rw [Ideal.ofBits_zero_f32, zero_add]
  rfl

/-- An entry less its gate's mean (the program forms this difference twice). -/
theorem centred_ref (x0 : Rows) (x2 : Wts) (x3 : Par) (b : Fin 32768) (g : Fin 3) (k : Fin 512) :
    val_main_v9 (F := Ideal) x0 x2 x3 (ix3 b g k)
      = val_main_v3 (F := Ideal) x0 x2 x3 (ix3 b g k) - rowMean (fun k' => val_main_v3 (F := Ideal) x0 x2 x3 (ix3 b g k')) := by
  rw [val_main_v9_apply, val_main_v8_apply, idx8, mean_ref]
  rfl
theorem centred_ref' (x0 : Rows) (x2 : Wts) (x3 : Par) (b : Fin 32768) (g : Fin 3) (k : Fin 512) :
    val_main_v16 (F := Ideal) x0 x2 x3 (ix3 b g k)
      = val_main_v3 (F := Ideal) x0 x2 x3 (ix3 b g k) - rowMean (fun k' => val_main_v3 (F := Ideal) x0 x2 x3 (ix3 b g k')) := by
  rw [val_main_v16_apply, val_main_v15_apply, idx15, mean_ref]
  rfl

/-- The mean of the squared differences. -/
theorem var_ref (x0 : Rows) (x2 : Wts) (x3 : Par) (b : Fin 32768) (g : Fin 3) (q : Fin 1) :
    val_main_v14 (F := Ideal) x0 x2 x3 (ix3 b g q)
      = rowMean (fun k => (val_main_v3 (F := Ideal) x0 x2 x3 (ix3 b g k) - rowMean (fun k' => val_main_v3 (F := Ideal) x0 x2 x3 (ix3 b g k')))
          * (val_main_v3 (F := Ideal) x0 x2 x3 (ix3 b g k) - rowMean (fun k' => val_main_v3 (F := Ideal) x0 x2 x3 (ix3 b g k')))) := by
  rw [val_main_v14_apply, val_main_v12_apply, idx12, val_main_v11_apply, val_main_v13_apply, val_main_cst_2_apply, val_main_cst_1_apply]
  simp only [idx11, val_main_v10_apply, centred_ref]
  show Ideal.div (Ideal.ofBits .f32 0x00000000#32 + ∑ k : Fin 512, _) width = _
  rw [Ideal.ofBits_zero_f32, zero_add]
  rfl

/-- Entry (b, g, j) of one side's normalised gates: the layer normalisation of the affine image of row b. -/
theorem gate_ref (x0 : Rows) (x2 : Wts) (x3 x6 x7 : Par) (b : Fin 32768) (g : Fin 3) (j : Fin 512) :
    val_main_v27 (F := Ideal) x0 x2 x3 x6 x7 (ix3 b g j)
      = layerNorm (affine (fun k => x0 (ix2 b k)) (fun j' k => x2 (ix3 g j' k)) (fun j' => x3 (ix2 g j')))
          (fun k => x6 (ix2 g k)) (fun k => x7 (ix2 g k)) j := by
  rw [val_main_v27_apply, val_main_v24_apply, val_main_v21_apply, centred_ref', val_main_v20_apply, idx20, val_main_v19_apply,
    val_main_v18_apply, var_ref, val_main_v17_apply, val_main_cst_3_apply, val_main_v23_apply, idx23, val_main_v22_apply, idx22,
    val_main_v26_apply, idx26, val_main_v25_apply, idx25]
  simp only [preact_ref]
  rfl

/-- The state side's normalised gates are the input side's function of the state side's arguments. -/
theorem state_gates_eq (x1 : Rows) (x4 : Wts) (x5 x8 x9 : Par) :
    val_main_v55 (F := Ideal) x1 x4 x5 x8 x9 = val_main_v27 (F := Ideal) x1 x4 x5 x8 x9 := rfl

/-! ## The three gates of each side at (b, j) -/

theorem cut0_in (x0 : Rows) (x2 : Wts) (x3 x6 x7 : Par) (b : Fin 32768) (j : Fin 512) :
    val_main_v57 (F := Ideal) x0 x2 x3 x6 x7 (ix2 b j) = val_main_v27 (F := Ideal) x0 x2 x3 x6 x7 (ix3 b (0 : Fin 3) j) := by
  rw [val_main_v57_apply, val_main_v56_apply, cutIdx0_in]
theorem cut1_in (x0 : Rows) (x2 : Wts) (x3 x6 x7 : Par) (b : Fin 32768) (j : Fin 512) :
    val_main_v68 (F := Ideal) x0 x2 x3 x6 x7 (ix2 b j) = val_main_v27 (F := Ideal) x0 x2 x3 x6 x7 (ix3 b (1 : Fin 3) j) := by
  rw [val_main_v68_apply, val_main_v67_apply, cutIdx1_in]
theorem cut2_in (x0 : Rows) (x2 : Wts) (x3 x6 x7 : Par) (b : Fin 32768) (j : Fin 512) :
    val_main_v79 (F := Ideal) x0 x2 x3 x6 x7 (ix2 b j) = val_main_v27 (F := Ideal) x0 x2 x3 x6 x7 (ix3 b (2 : Fin 3) j) := by
  rw [val_main_v79_apply, val_main_v78_apply, cutIdx2_in]
theorem cut0_st (x1 : Rows) (x4 : Wts) (x5 x8 x9 : Par) (b : Fin 32768) (j : Fin 512) :
    val_main_v59 (F := Ideal) x1 x4 x5 x8 x9 (ix2 b j) = val_main_v27 (F := Ideal) x1 x4 x5 x8 x9 (ix3 b (0 : Fin 3) j) := by
  rw [val_main_v59_apply, val_main_v58_apply, cutIdx0_st, state_gates_eq]
theorem cut1_st (x1 : Rows) (x4 : Wts) (x5 x8 x9 : Par) (b : Fin 32768) (j : Fin 512) :
    val_main_v70 (F := Ideal) x1 x4 x5 x8 x9 (ix2 b j) = val_main_v27 (F := Ideal) x1 x4 x5 x8 x9 (ix3 b (1 : Fin 3) j) := by
  rw [val_main_v70_apply, val_main_v69_apply, cutIdx1_st, state_gates_eq]
theorem cut2_st (x1 : Rows) (x4 : Wts) (x5 x8 x9 : Par) (b : Fin 32768) (j : Fin 512) :
    val_main_v81 (F := Ideal) x1 x4 x5 x8 x9 (ix2 b j) = val_main_v27 (F := Ideal) x1 x4 x5 x8 x9 (ix3 b (2 : Fin 3) j) := by
  rw [val_main_v81_apply, val_main_v80_apply, cutIdx2_st, state_gates_eq]

/-! ## The two logistic gates, spelled out by the program as 1 / (1 + e^(−x)) -/

theorem reset_ref (x0 x1 : Rows) (x2 : Wts) (x3 : Par) (x4 : Wts) (x5 x6 x7 x8 x9 : Par) (b : Fin 32768) (j : Fin 512) :
    val_main_v66 (F := Ideal) x0 x1 x2 x3 x4 x5 x6 x7 x8 x9 (ix2 b j)
      = Ideal.logistic (val_main_v27 (F := Ideal) x0 x2 x3 x6 x7 (ix3 b (0 : Fin 3) j) + val_main_v27 (F := Ideal) x1 x4 x5 x8 x9 (ix3 b (0 : Fin 3) j)) := by
  rw [val_main_v66_apply, val_main_v65_apply, val_main_cst_10_apply, val_main_v64_apply, val_main_v63_apply, val_main_cst_9_apply,
    val_main_v62_apply, val_main_v61_apply, val_main_v60_apply, cut0_in, cut0_st]
  exact logistic_spelled _

theorem update_ref (x0 x1 : Rows) (x2 : Wts) (x3 : Par) (x4 : Wts) (x5 x6 x7 x8 x9 : Par) (b : Fin 32768) (j : Fin 512) :
    val_main_v77 (F := Ideal) x0 x1 x2 x3 x4 x5 x6 x7 x8 x9 (ix2 b j)
      = Ideal.logistic (val_main_v27 (F := Ideal) x0 x2 x3 x6 x7 (ix3 b (1 : Fin 3) j) + val_main_v27 (F := Ideal) x1 x4 x5 x8 x9 (ix3 b (1 : Fin 3) j)) := by
  rw [val_main_v77_apply, val_main_v76_apply, val_main_cst_12_apply, val_main_v75_apply, val_main_v74_apply, val_main_cst_11_apply,
    val_main_v73_apply, val_main_v72_apply, val_main_v71_apply, cut1_in, cut1_st]
  exact logistic_spelled _

/-! ## The result -/

/-- ENTRY (b, j) OF THE REFERENCE'S RESULT is the cell at row b of x and of h. -/
theorem ref_apply (x0 x1 : Rows) (x2 : Wts) (x3 : Par) (x4 : Wts) (x5 x6 x7 x8 x9 : Par) (b : Fin 32768) (j : Fin 512) :
    val_main_v89 (F := Ideal) x0 x1 x2 x3 x4 x5 x6 x7 x8 x9 (ix2 b j)
      = cell (fun k => x0 (ix2 b k)) (fun k => x1 (ix2 b k)) (fun g j' k => x2 (ix3 g j' k)) (fun g j' k => x4 (ix3 g j' k))
          (fun g j' => x3 (ix2 g j')) (fun g j' => x5 (ix2 g j')) (fun g j' => x6 (ix2 g j')) (fun g j' => x7 (ix2 g j'))
          (fun g j' => x8 (ix2 g j')) (fun g j' => x9 (ix2 g j')) j := by
  rw [val_main_v89_apply, val_main_v87_apply, val_main_v86_apply, val_main_v85_apply, val_main_cst_13_apply, val_main_v88_apply,
    val_main_v84_apply, val_main_v83_apply, val_main_v82_apply, update_ref, reset_ref, cut2_in, cut2_st,
    gate_ref x0 x2 x3 x6 x7 b 0 j, gate_ref x0 x2 x3 x6 x7 b 1 j, gate_ref x0 x2 x3 x6 x7 b 2 j,
    gate_ref x1 x4 x5 x8 x9 b 0 j, gate_ref x1 x4 x5 x8 x9 b 1 j, gate_ref x1 x4 x5 x8 x9 b 2 j]
  rfl

end Cert.GruRef

end
-- ==== Proof.lean ====
/-
  A LayerNorm GRU cell: the Pallas kernel against its jnp reference, equal over the extended reals.

  Both programs compute, for every batch row b and hidden unit j,
      out[b,j] = (1 − z) · n + z · h[b,j],
      r = logistic(ai[0] + ah[0]),  z = logistic(ai[1] + ah[1]),  n = tanh(ai[2] + r · ah[2]),
  where ai[g] and ah[g] are the layer normalisations, over a gate's 512 units, of x[b,·]·Wi[g]ᵀ + bi[g] and of
  h[b,·]·Wh[g]ᵀ + bh[g] (Proof/Spec.lean states this as ONE function of the ten argument arrays).

  They differ only in layout. The reference keeps the gate as an axis of a 32768 × 3 × 512 array and spells the
  logistic function out as 1 / (1 + e^(−x)); the kernel lays the three gates' weight rows side by side as the 1536
  columns of one matrix per side, walks the batch in 64 blocks of 512 rows, and calls the logistic function by name.
  At the ideal values the changes of float format are the identity, a matrix product into a zero accumulator and a
  dot product are the same finite sum, a lane sum and a host sum from 0 are the same finite sum, and the spelled-out
  logistic is the logistic function; the divisor 512, the variance offset and the 1 of (1 − z) are the same binary
  words on both sides and are never evaluated. Finite sums over the extended reals do not depend on their order, and
  no other law of arithmetic is used, so the precondition (finite inputs) is never opened.

  Proof/RefCell.lean reads the reference's result at (b, j) as the cell; Proof/KernelRow.lean and Proof/KernelCell.lean
  read one grid point's block at (p, j) as the cell at that row; Proof/KernelArray.lean reads the blocks of x and h
  and the host's re-laid weights back to the argument arrays and tiles the result with the 64 blocks.
-/
import proofs.«158212_j34548716929790_1_alg».proof.Defs
import proofs.«158212_j34548716929790_1_alg».proof.Proof.Gen.Kernel
import proofs.«158212_j34548716929790_1_alg».proof.Proof.Gen.Kernel.Skeleton
import proofs.«158212_j34548716929790_1_alg».proof.Proof.Gen.Kernel.Launch
import proofs.«158212_j34548716929790_1_alg».proof.Proof.Gen.Kernel.Points
import proofs.«158212_j34548716929790_1_alg».proof.Proof.Gen.Kernel.Frame
import proofs.«158212_j34548716929790_1_alg».proof.Proof.Gen.KernelIdeal
import proofs.«158212_j34548716929790_1_alg».proof.Proof.Gen.KernelIdeal.Skeleton
import proofs.«158212_j34548716929790_1_alg».proof.Proof.Gen.KernelIdeal.Launch
import proofs.«158212_j34548716929790_1_alg».proof.Proof.Gen.KernelIdeal.Points
import proofs.«158212_j34548716929790_1_alg».proof.Proof.Gen.KernelIdeal.Frame
import proofs.«158212_j34548716929790_1_alg».proof.Proof.Gen.KernelIdeal.Value
import proofs.«158212_j34548716929790_1_alg».proof.Proof.Gen.ReferenceIdeal.Run
import proofs.«158212_j34548716929790_1_alg».proof.Proof.Gen.ReferenceIdeal.Read
import proofs.«158212_j34548716929790_1_alg».proof.Proof.Gen.ReferenceIdeal
import proofs.«158212_j34548716929790_1_alg».proof.Proof.Gen.Pre_finite_inputs
import proofs.«158212_j34548716929790_1_alg».proof.Proof.KernelArray
import proofs.«158212_j34548716929790_1_alg».proof.Proof.RefCell
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel terminates, faults nowhere and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel: the idealization is the program's own text read at the ideal values. -/
theorem preserves : Cert.preserves_Kernel_KernelIdeal := trivial

/-- From memories that agree on the ten arguments both programs end with the cell array: the kernel's 64 blocks tile
    it, and the reference's result is it entry by entry. -/
theorem algebraic : Cert.algebraic_KernelIdeal_ReferenceIdeal := by
  intro m ρ m' ρ' _ hagree
  refine ⟨fun c => Cert.GruKernel.cellArray m c, Cert.GruKernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v89_eq, a0, a1, a2, a3, a4, a5, a6, a7, a8, a9]
  funext i
  obtain ⟨b, j, rfl⟩ : ∃ (b : Fin 32768) (j : Fin 512), i = ix2 b j := ⟨i 0, i 1, eq_ix2 i⟩
  exact Cert.GruRef.ref_apply _ _ _ _ _ _ _ _ _ _ b j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
